-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_keep_prob" .f32 0x3F8E38E4#32 ((8388608 / 7549747 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn_part1 {F : FTy → Type} [FloatOps F] (main_v13 : IVec S_ 1) (main_v16 : IVec S16x2048x2048 1) : IVec S_ 1 :=
  let main_c_5 : IVec S_ 1 := constantI S_ 1 1#1
  let main_v17 : IVec S_ 1 := (fun x v => Host.reduce IntOp.andi x v reducesTo_S16x2048x2048_S_d0_1_2 h_S_) main_v16 main_c_5
  let main_v18 : IVec S_ 1 := andi main_v13 main_v17
  main_v18

def fn {F : FTy → Type} [FloatOps F] (main_arg0 : FVec F S16x2048x64 .f32) (main_arg1 : FVec F S16x2048x64 .f32) (main_arg2 : FVec F S16x2048x64 .f32) (main_arg3 : FVec F S16x2048x2048 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  let main_v14 : FVec F S16x2048x2048 .f32 := Host.absf main_arg3
  let main_cst_4 : FVec F S_ .f32 := constant S_ .f32 0x7F800000#32
  let main_v15 : FVec F S16x2048x2048 .f32 := broadcastInDim S16x2048x2048 ![] bcast_S_S16x2048x2048 main_cst_4
  let main_v16 : IVec S16x2048x2048 1 := cmpf .olt main_v14 main_v15
  fn_part1 (F := F) main_v13 main_v16
-- ==== Kernel.lean ====
abbrev S16x2048x64 : Shape := ⟨3, ![16, 2048, 64]⟩
abbrev S16x2048x2048 : Shape := ⟨3, ![16, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .f32⟩
  | .local _ .vmem, ⟨7, _⟩ => ⟨S1x512x2048, .f32⟩
  | .local _ .vmem, ⟨8, _⟩ => ⟨S1x512x64, .f32⟩
  | .local _ .vmem, ⟨9, _⟩ => ⟨S1x512x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .f32 = 32 ∨ (Rect.block (s := S16x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S16x2048x64.size a
  hwx0_4 : ∀ i : grid0.Coords, EltTy.bits .f32 = 32 ∨ (Rect.block (s := S16x2048x64) S1x512x64.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S_, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S_, .f32⟩
  | .hbm, ⟨10, _⟩ => ⟨S16x2048, .f32⟩
  | .hbm, ⟨11, _⟩ => ⟨S_, .f32⟩
  | .hbm, ⟨12, _⟩ => ⟨S16x2048, .f32⟩
  | .hbm, ⟨13, _⟩ => ⟨S16x2048, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x2048x2048, .f32⟩
  | .hbm, ⟨25, _⟩ => ⟨S16x2048x2048, .i1⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x2048x2048, .f32⟩
  | .hbm, ⟨30, _⟩ => ⟨S16x2048x2048, .f32⟩
  | .hbm, ⟨31, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Consts.lean ====
/-
  The float constants the two programs spell, as the extended reals their patterns denote: the query scale 0.125,
  the reference's 64.0 under its square root, the keep probability the reference divides by, 1.0, and the two
  infinities (the row maximum starts from the lower one; the precondition compares against the upper one).
-/
import Idealize.ShloMosaic.PureOps.Ideal

noncomputable section

namespace Cert.Attn.Consts

open Idealize.ShloMosaic

/-- 0.125 is the real 1/8. -/
theorem ofBits_eighth : Ideal.ofBits .f32 0x3E000000#32 = ((1 / 8 : ℝ) : EReal) := by
  simp [Ideal.ofBits, Ideal.ieee, -EReal.coe_mul]; norm_num

/-- 64.0 is the real 64. -/
theorem ofBits_64 : Ideal.ofBits .f32 0x42800000#32 = ((64 : ℝ) : EReal) := by
  simp [Ideal.ofBits, Ideal.ieee, -EReal.coe_mul]; norm_num

/-- The reference's keep probability, the float nearest 0.9, is the real 7549747 / 2²³. -/
theorem ofBits_keep : Ideal.ofBits .f32 0x3F666666#32 = ((7549747 / 8388608 : ℝ) : EReal) := by
  simp [Ideal.ofBits, Ideal.ieee, -EReal.coe_mul]; norm_num

/-- 1.0 is 1. -/
theorem ofBits_one : Ideal.ofBits .f32 0x3F800000#32 = 1 := by
  simp [Ideal.ofBits, Ideal.ieee, -EReal.coe_mul]; norm_num

/-- The pattern of -∞ is the bottom of the extended reals. -/
theorem ofBits_neg_inf : Ideal.ofBits .f32 0xFF800000#32 = ⊥ := by
  simp [Ideal.ofBits, Ideal.ieee]

/-- The pattern of +∞ is the top of the extended reals. -/
theorem ofBits_pos_inf : Ideal.ofBits .f32 0x7F800000#32 = ⊤ := by
  simp [Ideal.ofBits, Ideal.ieee]

end Cert.Attn.Consts

end
-- ==== Proof.Finite.lean ====
/-
  The precondition read back: it is the conjunction, over the four argument arrays, of "every entry's absolute value is
  below +∞", each a reduction by `and` over the whole array. Where it holds, every entry of the query and of the key is a
  real number (neither infinity) — the only part of it the equivalence uses.
-/
import proofs.«431248_j52518860096249_3_alg».proof.Pre_finite_inputs
import proofs.«431248_j52518860096249_3_alg».proof.Proof.Consts
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

open Idealize.ShloMosaic

namespace Cert.Attn

open Cert.Pre_finite_inputs

/-- The rank-0 shape has one index. -/
instance : Subsingleton S_.Idx := ⟨fun a b => funext fun d => d.elim0⟩

/-- An extended real whose absolute value compares below `+∞` is neither infinity. -/
theorem real_of_abs_lt (x : EReal)
    (h : FloatOps.cmpf (F := Ideal) (φ := .f32) .olt (FloatOps.hostAbsf (F := Ideal) (φ := .f32) x) (Ideal.ofBits .f32 0x7F800000#32) = 1#1) :
    x ≠ ⊥ ∧ x ≠ ⊤ := by
  rw [Consts.ofBits_pos_inf] at h
  induction x using EReal.rec with
  | bot => exact absurd h (by simp [Ideal.cmpf_def, Ideal.cmp, Ideal.absf_def])
  | top => exact absurd h (by simp [Ideal.cmpf_def, Ideal.cmp, Ideal.absf_def])
  | coe r => exact ⟨EReal.coe_ne_bot r, EReal.coe_ne_top r⟩

variable [Cert.Pre_finite_inputs.Facts]

/-- Under the precondition every entry of the first two arguments is a real number. -/
theorem real_of_pre (q k v : FVec Ideal S16x2048x64 .f32) (u : FVec Ideal S16x2048x2048 .f32)
    (h : Cert.Pre_finite_inputs.fn (F := Ideal) q k v u = fun _ => 1#1) :
    (∀ i, q i ≠ ⊥ ∧ q i ≠ ⊤) ∧ (∀ i, k i ≠ ⊥ ∧ k i ≠ ⊤) := by
  have h0 := congrFun h ValueIdx.ix0
  dsimp only [Cert.Pre_finite_inputs.fn, Cert.Pre_finite_inputs.fn_part1, andi] at h0
  obtain ⟨h1, -⟩ := IntOp.andi_eq_one.mp h0
  obtain ⟨h2, -⟩ := IntOp.andi_eq_one.mp h1
  obtain ⟨hq, hk⟩ := IntOp.andi_eq_one.mp h2
  refine ⟨fun i => real_of_abs_lt (q i) ?_, fun i => real_of_abs_lt (k i) ?_⟩
  · exact Host.reduce_andi_all _ _ _ _ _ hq i
  · exact Host.reduce_andi_all _ _ _ _ _ hk i

end Cert.Attn

end
-- ==== Proof.Softmax.lean ====
/-
  One entry of softmax attention with a dropout mask, on the extended reals, in the two arrangements the programs use.

  A row of scores `s` is shifted by its maximum `M`, exponentiated (`e j = exp (s j - M)`) and summed (`l = ∑ e j`).
  One arrangement divides each `e j` by `l`, multiplies by the 0/1 value of the comparison `u j > τ`, and divides by the
  keep probability `D`; the other selects `e j` or `0` by the same comparison and multiplies by `(1 / l) · C`, where `C` is
  the reciprocal of `D`. When every score is a real number the shifted scores are real, every `e j` is positive and
  `l ≠ 0`, so both quotients are products with `l⁻¹` and the two weights agree by associativity alone.

  The scores themselves: one arrangement scales the query by 1/8 before the contraction, the other divides the contraction
  by `√64`; for real queries and keys both are the real number `(∑ q k) / 8`.
-/
import Idealize.ShloMosaic.PureOps.Ideal
import Idealize.ShloMosaic.PureOps.Ideal.Laws

noncomputable section

open scoped BigOperators
open Idealize.ShloMosaic

namespace Cert.Attn

variable {n D : Nat}

/-! ## The two arrangements -/

/-- The largest entry of a row, starting from `-∞`. -/
def rowMax (s : Fin n → EReal) : EReal := Finset.univ.fold max ⊥ s

/-- The exponential of a row's entry shifted by the row's maximum. -/
def expRow (s : Fin n → EReal) (j : Fin n) : EReal := Ideal.exp (s j - rowMax s)

/-- The sum of a row's shifted exponentials. -/
def rowSum (s : Fin n → EReal) : EReal := ∑ j, expRow s j

/-- Scores with the query scaled by `c` before the contraction. -/
def scoreK (c : EReal) (qrow : Fin D → EReal) (krows : Fin n → Fin D → EReal) (j : Fin n) : EReal :=
  ∑ d, (qrow d * c) * krows j d

/-- Scores as the contraction divided by the square root of `c`. -/
def scoreR (c : EReal) (qrow : Fin D → EReal) (krows : Fin n → Fin D → EReal) (j : Fin n) : EReal :=
  Ideal.div (∑ d, qrow d * krows j d) (Ideal.sqrt c)

/-- An output entry, weights formed as (kept exponential) · ((1 / l) · cn). -/
def outK (cn τ : EReal) (s u vv : Fin n → EReal) : EReal :=
  ∑ j, (Scalar.select (Ideal.cmp .ogt (u j) τ) (expRow s j) 0 * (Ideal.div 1 (rowSum s) * cn)) * vv j

/-- An output entry, weights formed as ((exponential / l) · keep) / dd. -/
def outR (dd τ : EReal) (s u vv : Fin n → EReal) : EReal :=
  ∑ j, Ideal.div (Ideal.div (expRow s j) (rowSum s) * (((Ideal.cmp .ogt (u j) τ).toNat : ℝ) : EReal)) dd * vv j

/-! ## Real scores give a nonzero row sum -/

theorem exp_nonneg (x : EReal) : 0 ≤ Ideal.exp x := by
  induction x using EReal.rec with
  | bot => rw [Ideal.exp_bot]
  | top => rw [Ideal.exp_top]; exact le_top
  | coe r => rw [Ideal.exp_coe]; exact EReal.coe_nonneg.mpr (Real.exp_pos r).le

theorem exp_pos_of_ne_bot {x : EReal} (h : x ≠ ⊥) : 0 < Ideal.exp x := by
  induction x using EReal.rec with
  | bot => exact absurd rfl h
  | top => rw [Ideal.exp_top]; exact EReal.zero_lt_top
  | coe r => rw [Ideal.exp_coe]; exact EReal.coe_pos.mpr (Real.exp_pos r)

/-- The maximum of a row with no `+∞` in it is not `+∞`. -/
theorem rowMax_ne_top (s : Fin n → EReal) (hs : ∀ j, s j ≠ ⊤) : rowMax s ≠ ⊤ := by
  refine ne_of_lt ?_
  unfold rowMax
  rw [Finset.fold_max_lt]
  exact ⟨bot_lt_top, fun j _ => lt_top_iff_ne_top.mpr (hs j)⟩

/-- With real scores the row sum is not zero: every term is nonnegative and each one is positive. -/
theorem rowSum_ne_zero (hn : 0 < n) (s : Fin n → EReal) (hb : ∀ j, s j ≠ ⊥) (ht : ∀ j, s j ≠ ⊤) : rowSum s ≠ 0 := by
  have hM := rowMax_ne_top s ht
  have h0 : 0 < expRow s ⟨0, hn⟩ := by
    refine exp_pos_of_ne_bot ?_
    intro h
    rw [sub_eq_add_neg, EReal.add_eq_bot_iff, EReal.neg_eq_bot_iff] at h
    exact h.elim (hb _) hM
  have hle : expRow s ⟨0, hn⟩ ≤ rowSum s :=
    Finset.single_le_sum (f := expRow s) (fun j _ => exp_nonneg _) (Finset.mem_univ _)
  exact (lt_of_lt_of_le h0 hle).ne'

/-! ## The two weights agree -/

/-- For a nonzero row sum `l` and a nonzero keep probability `dr` with reciprocal `cr`: dividing by `l`, keeping or dropping by the
    0/1 value of a bit, and dividing by `dr` is selecting by the bit and multiplying by `(1 / l) · cr`. -/
theorem weight_eq (p l : EReal) (c : BitVec 1) (hl : l ≠ 0) {dr cr : ℝ} (hd : dr ≠ 0) (hc : cr = 1 / dr) :
    Ideal.div (Ideal.div p l * (((c.toNat : ℕ) : ℝ) : EReal)) (dr : EReal)
      = Scalar.select c p 0 * (Ideal.div 1 l * (cr : EReal)) := by
  rw [Ideal.div_coe hd, ← hc, Ideal.div, if_neg hl, Ideal.div, if_neg hl, one_mul]
  rcases (by revert c; decide : c = 0#1 ∨ c = 1#1) with rfl | rfl
  · rw [show Scalar.select (0#1) p (0 : EReal) = 0 from if_neg (by decide)]
    simp
  · rw [show Scalar.select (1#1) p (0 : EReal) = p from if_pos rfl]
    simp [mul_assoc]

/-- So, for real scores, the two arrangements of an output entry agree. -/
theorem outK_eq_outR (hn : 0 < n) (s u vv : Fin n → EReal) (τ : EReal) (hb : ∀ j, s j ≠ ⊥) (ht : ∀ j, s j ≠ ⊤)
    {dr cr : ℝ} (hd : dr ≠ 0) (hc : cr = 1 / dr) :
    outK (cr : EReal) τ s u vv = outR (dr : EReal) τ s u vv := by
  unfold outK outR
  refine Finset.sum_congr rfl fun j _ => ?_
  rw [weight_eq _ _ _ (rowSum_ne_zero hn s hb ht) hd hc]

/-! ## The two scores agree, and are real -/

/-- A finite sum of real numbers, coerced, is the sum of the coerced numbers. -/
theorem coe_sum {ι : Type*} (t : Finset ι) (f : ι → ℝ) : ((∑ i ∈ t, f i : ℝ) : EReal) = ∑ i ∈ t, (f i : EReal) := by
  classical
  refine Finset.induction_on t ?_ ?_
  · rw [Finset.sum_empty, Finset.sum_empty, EReal.coe_zero]
  · intro a t ha ih
    rw [Finset.sum_insert ha, Finset.sum_insert ha, EReal.coe_add, ih]

/-- Real queries scaled by 1/8 and contracted with real keys: the real number `(∑ q k) / 8`. -/
theorem scoreK_coe (Q : Fin D → ℝ) (K : Fin n → Fin D → ℝ) (j : Fin n) :
    scoreK (((1 / 8 : ℝ)) : EReal) (fun d => (Q d : EReal)) (fun j d => (K j d : EReal)) j
      = (((∑ d, Q d * K j d) / 8 : ℝ) : EReal) := by
  unfold scoreK
  simp only [← EReal.coe_mul]
  rw [← coe_sum, Finset.sum_div]
  refine congrArg _ (Finset.sum_congr rfl fun d _ => ?_)
  ring

/-- The contraction of real queries and keys divided by `√64`: the same real number. -/
theorem scoreR_coe (Q : Fin D → ℝ) (K : Fin n → Fin D → ℝ) (j : Fin n) :
    scoreR ((64 : ℝ) : EReal) (fun d => (Q d : EReal)) (fun j d => (K j d : EReal)) j
      = (((∑ d, Q d * K j d) / 8 : ℝ) : EReal) := by
  unfold scoreR
  simp only [← EReal.coe_mul]
  have h8 : Real.sqrt 64 = 8 := by
    rw [show (64 : ℝ) = 8 ^ 2 by norm_num, Real.sqrt_sq (by norm_num)]
  rw [← coe_sum, Ideal.sqrt_coe, if_neg (by norm_num), h8, Ideal.div_coe (by norm_num), ← EReal.coe_mul]
  refine congrArg _ ?_
  ring

end Cert.Attn

end
-- ==== Proof.KerPayload.lean ====
/-
  The kernel body's arithmetic, read at an index. From the loaded blocks — a [1, 512, 64] tile of queries, the batch's
  [1, 2048, 64] keys and values, a [1, 512, 2048] tile of mask draws — the body forms scores (the query tile times 1/8,
  contracted with the keys over the 64 features), shifts each row by its maximum, exponentiates, sums each row, forms
  `(1 / l) · C` per row, keeps or zeroes each exponential by `mask > τ`, multiplies, and contracts with the values over
  the 2048 key positions. At `(r, c)` of the tile that is `outK` over `scoreK` of the blocks' rows; the changes of float
  format on the way are the identity here.
-/
import proofs.«431248_j52518860096249_3_alg».proof.Proof.Gen.KernelIdeal.Skeleton
import proofs.«431248_j52518860096249_3_alg».proof.Proof.Softmax
import proofs.«431248_j52518860096249_3_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.Attn.Ker

open Cert.KernelIdeal Cert.KernelIdeal.Gen

/-! ## The two contractions -/

theorem lhs1_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs1_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs1_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs1_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The score contraction at `(r, j)`: over the 64 features, row `r` of the left operand against row `j` of the right. -/
theorem scores_mm_apply (A : FVec Ideal S512x64 .bf16) (B : FVec Ideal S2048x64 .bf16) (r : Fin 512) (j : Fin 2048) :
    matmul dot_S512x64_S2048x64_S512x2048_1_1_0_0_n_n none A B (constant S512x2048 .f32 0x00000000#32) (ix2 r j)
      = ∑ d : Fin 64, A (ix2 r d) * B (ix2 j d) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun d _ => ?_
  have hk := ValueIdx.contrEquiv1_symm_val dot_S512x64_S2048x64_S512x2048_1_1_0_0_n_n 64 rfl rfl d
  have el : dot_S512x64_S2048x64_S512x2048_1_1_0_0_n_n.lhsIdx (ix2 r j) ((ValueIdx.contrEquiv1 dot_S512x64_S2048x64_S512x2048_1_1_0_0_n_n 64 rfl rfl).symm d) = ix2 r d := funext fun a => Fin.ext (by
    match a with
    | ⟨0, _⟩ => exact lhs1_0 _ _
    | ⟨1, _⟩ => exact (lhs1_1 _ _).trans hk)
  have er : dot_S512x64_S2048x64_S512x2048_1_1_0_0_n_n.rhsIdx (ix2 r j) ((ValueIdx.contrEquiv1 dot_S512x64_S2048x64_S512x2048_1_1_0_0_n_n 64 rfl rfl).symm d) = ix2 j d := funext fun a => Fin.ext (by
    match a with
    | ⟨0, _⟩ => exact rhs1_0 _ _
    | ⟨1, _⟩ => exact (rhs1_1 _ _).trans hk)
  rw [el, er]

theorem lhs2_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs2_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs2_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs2_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The output contraction at `(r, c)`: over the 2048 key positions, row `r` of the weights against column `c` of the values. -/
theorem out_mm_apply (A : FVec Ideal S512x2048 .bf16) (B : FVec Ideal S2048x64 .bf16) (r : Fin 512) (c : Fin 64) :
    matmul dot_S512x2048_S2048x64_S512x64_1_0_0_1_n_n none A B (constant S512x64 .f32 0x00000000#32) (ix2 r c)
      = ∑ j : Fin 2048, A (ix2 r j) * B (ix2 j c) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun j _ => ?_
  have hk := ValueIdx.contrEquiv1_symm_val dot_S512x2048_S2048x64_S512x64_1_0_0_1_n_n 2048 rfl rfl j
  have el : dot_S512x2048_S2048x64_S512x64_1_0_0_1_n_n.lhsIdx (ix2 r c) ((ValueIdx.contrEquiv1 dot_S512x2048_S2048x64_S512x64_1_0_0_1_n_n 2048 rfl rfl).symm j) = ix2 r j := funext fun a => Fin.ext (by
    match a with
    | ⟨0, _⟩ => exact lhs2_0 _ _
    | ⟨1, _⟩ => exact (lhs2_1 _ _).trans hk)
  have er : dot_S512x2048_S2048x64_S512x64_1_0_0_1_n_n.rhsIdx (ix2 r c) ((ValueIdx.contrEquiv1 dot_S512x2048_S2048x64_S512x64_1_0_0_1_n_n 2048 rfl rfl).symm j) = ix2 j c := funext fun a => Fin.ext (by
    match a with
    | ⟨0, _⟩ => exact (rhs2_0 _ _).trans hk
    | ⟨1, _⟩ => exact rhs2_1 _ _)
  rw [el, er]

/-! ## Per-row values: a [512] vector as a column, a column along the key positions, the two row reductions -/

/-- A [512] vector cast to a [512, 1] column, at row `r`. -/
theorem col_cast_apply (x : FVec Ideal S512 .f32) (r : Fin 512) :
    shapeCast S512x1 x shapeCasts_S512_S512x1 (ix2 r (0 : Fin 1)) = x (ix1 r) :=
  shapeCast_apply x _ _ _ (by
    rw [Shape.rowMajor_val_one, Shape.rowMajor_val_two]
    show r.val = r.val * 1 + 0
    omega)

/-- A [512, 1] column broadcast along the 2048 key positions, at `(r, j)`. -/
theorem col_bcast_apply (x : FVec Ideal S512x1 .f32) (r : Fin 512) (j : Fin 2048) :
    broadcastTo S512x2048 x broadcasts_S512x1_S512x2048 (ix2 r j) = x (ix2 r (0 : Fin 1)) :=
  broadcastTo_apply x _ _ _ (fun a => match a with
    | ⟨0, _⟩ => by show r.val = if (512 : Nat) = 1 then 0 else r.val; rw [if_neg (by decide)]
    | ⟨1, _⟩ => by show 0 = if (1 : Nat) = 1 then 0 else j.val; rw [if_pos rfl])

/-- A key position inserted after a row index. -/
theorem lift1_eq (h : S512x2048.Reduces [1] S512) (r : Fin 512) (j : Fin 2048) : h.lift (ix1 r) j = ix2 r j :=
  funext fun a => Fin.ext (by match a with | ⟨0, _⟩ => rfl | ⟨1, _⟩ => rfl)

/-- The row maximum of a [512, 2048] matrix, from `-∞`. -/
theorem rowmax_apply (S : FVec Ideal S512x2048 .f32) (r : Fin 512) :
    multiReduction .maximumf [1] S512 S 0xFF800000#32 reduces_S512x2048_S512 (.inl rfl) rfl (ix1 r)
      = rowMax (fun j : Fin 2048 => S (ix2 r j)) := by
  have hfun : (S ∘ reduces_S512x2048_S512.lift (ix1 r)) = fun j : Fin 2048 => S (ix2 r j) :=
    funext fun (j : Fin 2048) => by
      show S (reduces_S512x2048_S512.lift (ix1 r) j) = _
      rw [lift1_eq]
  refine (Ideal.multiReduction_maximumf_single S 0xFF800000#32 reduces_S512x2048_S512 (.inl rfl) rfl (ix1 r)).trans ?_
  rw [hfun]
  show Finset.univ.fold max (Ideal.ofBits .f32 0xFF800000#32) _ = _
  rw [Consts.ofBits_neg_inf]
  rfl

/-- The row sum of a [512, 2048] matrix. -/
theorem rowsum_apply (E : FVec Ideal S512x2048 .f32) (r : Fin 512) :
    multiReduction .add [1] S512 E 0x00000000#32 reduces_S512x2048_S512 (.inl rfl) rfl (ix1 r)
      = ∑ j : Fin 2048, E (ix2 r j) := by
  refine (Ideal.multiReduction_add_single E 0x00000000#32 reduces_S512x2048_S512 (.inl rfl) rfl (ix1 r)).trans ?_
  show ∑ j : Fin 2048, E (reduces_S512x2048_S512.lift (ix1 r) j) = _
  exact Finset.sum_congr rfl fun j _ => by rw [lift1_eq]

/-! ## The body's stages -/

/-- The scores: the query tile times 1/8, contracted with the keys. -/
def sc (P0 : Vec Ideal S1x512x64 .f32) (P1 : Vec Ideal S1x2048x64 .f32) : FVec Ideal S512x2048 .f32 :=
  matmul dot_S512x64_S2048x64_S512x2048_1_1_0_0_n_n none
    (truncf .bf16 (mulf (shapeCast S512x64 P0 shapeCasts_S1x512x64_S512x64) (broadcast S512x64 (Scalar.ofBits .f32 0x3E000000#32))) bitsLt_bf16_f32)
    (truncf .bf16 (shapeCast S2048x64 P1 shapeCasts_S1x2048x64_S2048x64) bitsLt_bf16_f32)
    (constant S512x2048 .f32 0x00000000#32)

/-- The exponentials of the scores shifted by their row maxima. -/
def ex (S : FVec Ideal S512x2048 .f32) : FVec Ideal S512x2048 .f32 :=
  exp (subf S (broadcastTo S512x2048 (shapeCast S512x1
    (multiReduction .maximumf [1] S512 S 0xFF800000#32 reduces_S512x2048_S512 (.inl rfl) rfl) shapeCasts_S512_S512x1)
    broadcasts_S512x1_S512x2048))

/-- The per-row factor: the reciprocal of the row sum times the named reciprocal keep probability. -/
def fac (E : FVec Ideal S512x2048 .f32) : FVec Ideal S512x1 .f32 :=
  mulf (divf (broadcast S512x1 (Scalar.ofBits .f32 0x3F800000#32)) (shapeCast S512x1
    (multiReduction .add [1] S512 E 0x00000000#32 reduces_S512x2048_S512 (.inl rfl) rfl) shapeCasts_S512_S512x1))
    (broadcast S512x1 (Named.named κ "inv_keep_prob" 0x3F8E38E4#32))

/-- The weights: the exponentials kept where the mask draw exceeds the threshold, zero elsewhere, times the row factor. -/
def wt (E U : FVec Ideal S512x2048 .f32) : FVec Ideal S512x2048 .f32 :=
  mulf (select (cmpf .ogt U (broadcast S512x2048 (Scalar.ofBits .f32 0x3DCCCCCD#32))) E
      (broadcast S512x2048 (Scalar.ofBits .f32 0x00000000#32)))
    (broadcastTo S512x2048 (fac E) broadcasts_S512x1_S512x2048)

/-- The payload is the output contraction of those weights with the values. -/
theorem pay_eq (P0 : Vec Ideal S1x512x64 .f32) (P1 P2 : Vec Ideal S1x2048x64 .f32) (P3 : Vec Ideal S1x512x2048 .f32) :
    k0_pay2 (F := Ideal) P0 P1 P2 P3
      = matmul dot_S512x2048_S2048x64_S512x64_1_0_0_1_n_n none
          (truncf .bf16 (wt (ex (sc P0 P1)) (shapeCast S512x2048 P3 shapeCasts_S1x512x2048_S512x2048)) bitsLt_bf16_f32)
          (truncf .bf16 (shapeCast S2048x64 P2 shapeCasts_S1x2048x64_S2048x64) bitsLt_bf16_f32)
          (constant S512x64 .f32 0x00000000#32) := rfl

theorem sc_apply (P0 : Vec Ideal S1x512x64 .f32) (P1 : Vec Ideal S1x2048x64 .f32) (r : Fin 512) (j : Fin 2048) :
    sc P0 P1 (ix2 r j)
      = scoreK (Ideal.ofBits .f32 0x3E000000#32) (fun d : Fin 64 => P0 (ix3 (0 : Fin 1) r d))
          (fun (j : Fin 2048) (d : Fin 64) => P1 (ix3 (0 : Fin 1) j d)) j := by
  unfold sc scoreK
  rw [scores_mm_apply]
  refine Finset.sum_congr rfl fun d _ => ?_
  show (shapeCast S512x64 P0 shapeCasts_S1x512x64_S512x64 (ix2 r d) * Ideal.ofBits .f32 0x3E000000#32)
      * shapeCast S2048x64 P1 shapeCasts_S1x2048x64_S2048x64 (ix2 j d) = _
  rw [shapeCast_1ab_ab_apply, shapeCast_1ab_ab_apply]

theorem ex_apply (S : FVec Ideal S512x2048 .f32) (r : Fin 512) (j : Fin 2048) :
    ex S (ix2 r j) = expRow (fun j : Fin 2048 => S (ix2 r j)) j := by
  unfold ex expRow
  show Ideal.exp (S (ix2 r j) - broadcastTo S512x2048 _ broadcasts_S512x1_S512x2048 (ix2 r j)) = _
  rw [col_bcast_apply, col_cast_apply, rowmax_apply]

theorem fac_apply (E : FVec Ideal S512x2048 .f32) (r : Fin 512) :
    fac E (ix2 r (0 : Fin 1))
      = Ideal.div 1 (∑ j : Fin 2048, E (ix2 r j)) * Named.named (F := Ideal) κ "inv_keep_prob" (φ := .f32) 0x3F8E38E4#32 := by
  unfold fac
  show Ideal.div (Ideal.ofBits .f32 0x3F800000#32) (shapeCast S512x1 _ shapeCasts_S512_S512x1 (ix2 r (0 : Fin 1))) * _ = _
  rw [col_cast_apply, rowsum_apply, Consts.ofBits_one]
  rfl

theorem wt_apply (E U : FVec Ideal S512x2048 .f32) (r : Fin 512) (j : Fin 2048) :
    wt E U (ix2 r j)
      = Scalar.select (Ideal.cmp .ogt (U (ix2 r j)) (Ideal.ofBits .f32 0x3DCCCCCD#32)) (E (ix2 r j)) 0
          * (Ideal.div 1 (∑ j : Fin 2048, E (ix2 r j)) * Named.named (F := Ideal) κ "inv_keep_prob" (φ := .f32) 0x3F8E38E4#32) := by
  unfold wt
  show Scalar.select (Ideal.cmp .ogt (U (ix2 r j)) (Ideal.ofBits .f32 0x3DCCCCCD#32)) (E (ix2 r j)) (Ideal.ofBits .f32 0x00000000#32)
      * broadcastTo S512x2048 (fac E) broadcasts_S512x1_S512x2048 (ix2 r j) = _
  rw [col_bcast_apply, fac_apply, Ideal.ofBits_zero_f32]

/-- THE PAYLOAD at `(r, c)` of the tile. -/
theorem pay_apply (P0 : Vec Ideal S1x512x64 .f32) (P1 P2 : Vec Ideal S1x2048x64 .f32) (P3 : Vec Ideal S1x512x2048 .f32)
    (r : Fin 512) (c : Fin 64) :
    k0_pay2 (F := Ideal) P0 P1 P2 P3 (ix2 r c)
      = outK (Named.named (F := Ideal) κ "inv_keep_prob" (φ := .f32) 0x3F8E38E4#32) (Ideal.ofBits .f32 0x3DCCCCCD#32)
          (scoreK (Ideal.ofBits .f32 0x3E000000#32) (fun d : Fin 64 => P0 (ix3 (0 : Fin 1) r d))
            (fun (j : Fin 2048) (d : Fin 64) => P1 (ix3 (0 : Fin 1) j d)))
          (fun j : Fin 2048 => P3 (ix3 (0 : Fin 1) r j)) (fun j : Fin 2048 => P2 (ix3 (0 : Fin 1) j c)) := by
  rw [pay_eq, out_mm_apply]
  unfold outK rowSum
  refine Finset.sum_congr rfl fun j _ => ?_
  show wt (ex (sc P0 P1)) (shapeCast S512x2048 P3 shapeCasts_S1x512x2048_S512x2048) (ix2 r j)
      * shapeCast S2048x64 P2 shapeCasts_S1x2048x64_S2048x64 (ix2 j c) = _
  rw [wt_apply, shapeCast_1ab_ab_apply, shapeCast_1ab_ab_apply]
  simp only [ex_apply, sc_apply]

end Cert.Attn.Ker

end
-- ==== Proof.KerValue.lean ====
/-
  From the grid's blocks to the whole result array. The grid has 16 × 4 points `(b, qi)`. At a point the query and mask
  windows hold rows `512·qi … 512·qi + 511` of batch `b`, the key and value windows hold the whole batch `b`, and the output
  window's block is rows `512·qi … 512·qi + 511` of batch `b` of the result. So what the point writes back is that block of
  ONE function of the argument arrays — entry `(b, r, c)` is `outK` over `scoreK` of row `r` of the queries and of the mask
  draws, the keys and column `c` of the values of batch `b` — and the 64 blocks tile the array.
-/
import proofs.«431248_j52518860096249_3_alg».proof.Proof.Gen.KernelIdeal.Value
import proofs.«431248_j52518860096249_3_alg».proof.Proof.KerPayload
import Idealize.ShloMosaic.Lib.Pipeline.Value
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.Attn.Ker

open Cert.KernelIdeal Cert.KernelIdeal.Gen Cert.KernelIdeal.Value

variable (m : (ℓ : Loc nD τ sig) → Buf (Elt Ideal) ℓ) (ρ : Dev nD → PrngReg)

theorem hz : (![0, 0, 0] : Fin 3 → Nat) = fun _ => 0 := funext fun a => by fin_cases a <;> rfl

/-! ## The result as one function of the arguments -/

/-- Entry `(b, r, c)` of the kernel's result. -/
def gk (q k v : S16x2048x64.Idx → EReal) (u : S16x2048x2048.Idx → EReal) (b : Fin 16) (r : Fin 2048) (c : Fin 64) : EReal :=
  outK (Named.named (F := Ideal) κ "inv_keep_prob" (φ := .f32) 0x3F8E38E4#32) (Ideal.ofBits .f32 0x3DCCCCCD#32)
    (scoreK (Ideal.ofBits .f32 0x3E000000#32) (fun d : Fin 64 => q (ix3 b r d)) (fun (j : Fin 2048) (d : Fin 64) => k (ix3 b j d)))
    (fun j : Fin 2048 => u (ix3 b r j)) (fun j : Fin 2048 => v (ix3 b j c))

/-- The kernel's result array. -/
def GK (q k v : S16x2048x64.Idx → EReal) (u : S16x2048x2048.Idx → EReal) : S16x2048x64.Idx → EReal :=
  fun i => gk q k v u (i 0) (i 1) (i 2)

/-- What a point computes from blocks that are the rows `o … o + 511` of batch `b` of the queries and mask draws and the whole
    batch `b` of the keys and values: entry `(b, o + r, c)` of the result. -/
theorem point_eq (X0 : Vec Ideal S1x512x64 .f32) (X1 X2 : Vec Ideal S1x2048x64 .f32) (X3 : Vec Ideal S1x512x2048 .f32)
    (q k v : S16x2048x64.Idx → EReal) (u : S16x2048x2048.Idx → EReal) (b : Fin 16) (o : Nat) (ho : o + 512 ≤ 2048)
    (h0 : ∀ (r : Fin 512) (d : Fin 64), X0 (ix3 (0 : Fin 1) r d) = q (ix3 b ⟨o + r.val, by have := r.isLt; omega⟩ d))
    (h1 : ∀ (j : Fin 2048) (d : Fin 64), X1 (ix3 (0 : Fin 1) j d) = k (ix3 b j d))
    (h2 : ∀ (j : Fin 2048) (d : Fin 64), X2 (ix3 (0 : Fin 1) j d) = v (ix3 b j d))
    (h3 : ∀ (r : Fin 512) (j : Fin 2048), X3 (ix3 (0 : Fin 1) r j) = u (ix3 b ⟨o + r.val, by have := r.isLt; omega⟩ j))
    (r : Fin 512) (cc : Fin 64) :
    k0_pay2 (F := Ideal) X0 X1 X2 X3 (ix2 r cc) = gk q k v u b ⟨o + r.val, by have := r.isLt; omega⟩ cc := by
  rw [pay_apply]
  unfold gk
  simp only [h0, h1, h2, h3]

/-- The stored tile `[1, 512, 64]` at an index is the computed `[512, 64]` tile at the index's last two coordinates. -/
theorem pay1_apply (X : FVec Ideal S512x64 .f32) (y : S1x512x64.Idx) (hy1 : (y 1).val < 512) (hy2 : (y 2).val < 64) :
    k0_pay1 (F := Ideal) X y = X (ix2 (⟨(y 1).val, hy1⟩ : Fin 512) (⟨(y 2).val, hy2⟩ : Fin 64)) := by
  have hy0 : (y 0).val < 1 := (y 0).isLt
  refine shapeCast_apply _ _ y _ ?_
  rw [Shape.rowMajor_val_two, Shape.rowMajor_val_three]
  show (y 1).val * 64 + (y 2).val = ((y 0).val * 512 + (y 1).val) * 64 + (y 2).val
  omega

/-! ## The windows' index maps over the grid -/

/-- Decided over the 64 points: every window's batch index is the output's; the query and mask windows' row-block index is
    the output's; the key and value windows stay at row block 0; nothing moves along the last axis. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_4.index t (0 : Fin 3) ≤ 15 ∧ win0_4.index t (1 : Fin 3) ≤ 3 ∧ win0_4.index t (2 : Fin 3) = 0 :=
  (by decide +kernel : ∀ t : Fin grid0.N, _)

/-- Every (batch, row block) is some point's output block. -/
theorem idx_onto : ∀ (q0 : Fin 16) (q1 : Fin 4), ∃ t : Fin cfg0.N, win0_4.index t = ![q0.val, q1.val, 0] :=
  (by decide +kernel : ∀ (q0 : Fin 16) (q1 : Fin 4), ∃ t : Fin grid0.N, win0_4.index t = ![q0.val, q1.val, 0])

/-! ## The input blocks read at an index -/

theorem iblk0_apply (c : Dev nD) (t : Fin cfg0.N) (x : S1x512x64.Idx) (i : S16x2048x64.Idx)
    (h0 : (i 0).val = win0_0.index t (0 : Fin 3) * 1 + 1 * (x 0).val)
    (h1 : (i 1).val = win0_0.index t (1 : Fin 3) * 512 + 1 * (x 1).val)
    (h2 : (i 2).val = win0_0.index t (2 : Fin 3) * 64 + 1 * (x 2).val) :
    (iblk m c 0 t : Vec Ideal S1x512x64 .f32) x = (m ((c : Thread nD τ).loc main_arg0) : S16x2048x64.Idx → EReal) i := by
  unfold iblk
  rw [View.read_apply]
  show V m c main_arg0 _ = m (c.tc.loc main_arg0) _
  unfold V
  congr 1
  funext a
  apply Fin.ext
  match a with
  | ⟨0, _⟩ => exact h0.symm
  | ⟨1, _⟩ => exact h1.symm
  | ⟨2, _⟩ => exact h2.symm

theorem iblk1_apply (c : Dev nD) (t : Fin cfg0.N) (x : S1x2048x64.Idx) (i : S16x2048x64.Idx)
    (h0 : (i 0).val = win0_1.index t (0 : Fin 3) * 1 + 1 * (x 0).val)
    (h1 : (i 1).val = win0_1.index t (1 : Fin 3) * 2048 + 1 * (x 1).val)
    (h2 : (i 2).val = win0_1.index t (2 : Fin 3) * 64 + 1 * (x 2).val) :
    (iblk m c 1 t : Vec Ideal S1x2048x64 .f32) x = (m ((c : Thread nD τ).loc main_arg1) : S16x2048x64.Idx → EReal) i := by
  unfold iblk
  rw [View.read_apply]
  show V m c main_arg1 _ = m (c.tc.loc main_arg1) _
  unfold V
  congr 1
  funext a
  apply Fin.ext
  match a with
  | ⟨0, _⟩ => exact h0.symm
  | ⟨1, _⟩ => exact h1.symm
  | ⟨2, _⟩ => exact h2.symm

theorem iblk2_apply (c : Dev nD) (t : Fin cfg0.N) (x : S1x2048x64.Idx) (i : S16x2048x64.Idx)
    (h0 : (i 0).val = win0_2.index t (0 : Fin 3) * 1 + 1 * (x 0).val)
    (h1 : (i 1).val = win0_2.index t (1 : Fin 3) * 2048 + 1 * (x 1).val)
    (h2 : (i 2).val = win0_2.index t (2 : Fin 3) * 64 + 1 * (x 2).val) :
    (iblk m c 2 t : Vec Ideal S1x2048x64 .f32) x = (m ((c : Thread nD τ).loc main_arg2) : S16x2048x64.Idx → EReal) i := by
  unfold iblk
  rw [View.read_apply]
  show V m c main_arg2 _ = m (c.tc.loc main_arg2) _
  unfold V
  congr 1
  funext a
  apply Fin.ext
  match a with
  | ⟨0, _⟩ => exact h0.symm
  | ⟨1, _⟩ => exact h1.symm
  | ⟨2, _⟩ => exact h2.symm

theorem iblk3_apply (c : Dev nD) (t : Fin cfg0.N) (x : S1x512x2048.Idx) (i : S16x2048x2048.Idx)
    (h0 : (i 0).val = win0_3.index t (0 : Fin 3) * 1 + 1 * (x 0).val)
    (h1 : (i 1).val = win0_3.index t (1 : Fin 3) * 512 + 1 * (x 1).val)
    (h2 : (i 2).val = win0_3.index t (2 : Fin 3) * 2048 + 1 * (x 2).val) :
    (iblk m c 3 t : Vec Ideal S1x512x2048 .f32) x = (m ((c : Thread nD τ).loc main_arg3) : S16x2048x2048.Idx → EReal) i := by
  unfold iblk
  rw [View.read_apply]
  show V m c main_arg3 _ = m (c.tc.loc main_arg3) _
  unfold V
  congr 1
  funext a
  apply Fin.ext
  match a with
  | ⟨0, _⟩ => exact h0.symm
  | ⟨1, _⟩ => exact h1.symm
  | ⟨2, _⟩ => exact h2.symm

/-! ## What a point writes back, the cover, the array, the run -/

/-- The kernel's result array over the arguments as the region finds them. -/
abbrev result (c : Dev nD) : S16x2048x64.Idx → EReal :=
  GK (m ((c : Thread nD τ).loc main_arg0)) (m ((c : Thread nD τ).loc main_arg1)) (m ((c : Thread nD τ).loc main_arg2))
    (m ((c : Thread nD τ).loc main_arg3))

/-- WHAT POINT `t` WRITES BACK is block `t` of the result array. -/
theorem flushed_eq (c : Dev nD) (t : Fin cfg0.N) :
    (dats m 0 c).flushed 4 t = ((cfg0.win 4).blk t).view.read (Elt Ideal) (result m c) := by
  rw [flushed4]
  unfold out0_4
  rw [View.canon_unit_zero hz]
  simp only [View.ld_unit_zero (S := S1x512x64) hz, View.ld_unit_zero (S := S1x2048x64) hz, View.ld_unit_zero (S := S1x512x2048) hz]
  obtain ⟨e00, e01, e02, e10, e11, e12, e20, e21, e22, e30, e31, e32, b0, b1, e42⟩ := idx_facts t
  funext y
  have hy0 : (y 0).val < 1 := (y 0).isLt
  have hy1 : (y 1).val < 512 := (y 1).isLt
  have hy2 : (y 2).val < 64 := (y 2).isLt
  show k0_pay1 (k0_pay2 (F := Ideal) (iblk m c 0 t) (iblk m c 1 t) (iblk m c 2 t) (iblk m c 3 t)) y
    = result m c (((cfg0.win 4).blk t).view.emb y)
  refine (pay1_apply _ y hy1 hy2).trans ?_
  refine (point_eq (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg3)) ⟨win0_4.index t (0 : Fin 3), by omega⟩ (win0_4.index t (1 : Fin 3) * 512) (by omega)
    ?_ ?_ ?_ ?_ ⟨(y 1).val, hy1⟩ ⟨(y 2).val, hy2⟩).trans ?_
  · intro r d
    exact iblk0_apply m c t _ _
      (by show win0_4.index t (0 : Fin 3) = win0_0.index t (0 : Fin 3) * 1 + 1 * 0; omega)
      (by show win0_4.index t (1 : Fin 3) * 512 + r.val = win0_0.index t (1 : Fin 3) * 512 + 1 * r.val; omega)
      (by show d.val = win0_0.index t (2 : Fin 3) * 64 + 1 * d.val; omega)
  · intro j d
    exact iblk1_apply m c t _ _
      (by show win0_4.index t (0 : Fin 3) = win0_1.index t (0 : Fin 3) * 1 + 1 * 0; omega)
      (by show j.val = win0_1.index t (1 : Fin 3) * 2048 + 1 * j.val; omega)
      (by show d.val = win0_1.index t (2 : Fin 3) * 64 + 1 * d.val; omega)
  · intro j d
    exact iblk2_apply m c t _ _
      (by show win0_4.index t (0 : Fin 3) = win0_2.index t (0 : Fin 3) * 1 + 1 * 0; omega)
      (by show j.val = win0_2.index t (1 : Fin 3) * 2048 + 1 * j.val; omega)
      (by show d.val = win0_2.index t (2 : Fin 3) * 64 + 1 * d.val; omega)
  · intro r j
    exact iblk3_apply m c t _ _
      (by show win0_4.index t (0 : Fin 3) = win0_3.index t (0 : Fin 3) * 1 + 1 * 0; omega)
      (by show win0_4.index t (1 : Fin 3) * 512 + r.val = win0_3.index t (1 : Fin 3) * 512 + 1 * r.val; omega)
      (by show j.val = win0_3.index t (2 : Fin 3) * 2048 + 1 * j.val; omega)
  · show gk _ _ _ _ _ _ _ = gk _ _ _ _ _ _ _
    congr 1
    · apply Fin.ext
      show win0_4.index t (0 : Fin 3) = win0_4.index t (0 : Fin 3) * 1 + 1 * (y 0).val
      omega
    · apply Fin.ext
      show win0_4.index t (1 : Fin 3) * 512 + (y 1).val = win0_4.index t (1 : Fin 3) * 512 + 1 * (y 1).val
      omega
    · apply Fin.ext
      show (y 2).val = win0_4.index t (2 : Fin 3) * 64 + 1 * (y 2).val
      omega

/-- An index of the array is in point `t`'s output block iff each coordinate is in the block's range on its axis. -/
theorem mem_blk (t : Fin cfg0.N) (i : S16x2048x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v0).slice (win0_4.rect t)).set ↔ _
  rw [View.set_slice_whole, Rect.mem_set_unit]
  exact Iff.rfl

/-- The 64 output blocks tile the array: index `(b, r, c)` lies in the block of the point `(b, r / 512)`. -/
theorem cover (i : S16x2048x64.Idx) : ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- THE ARRAY after the run is the result array. -/
theorem final (c : Dev nD) : (dats m 0 c).arrAt 4 cfg0.N = result m c :=
  (dats m 0 c).arrAt_eq_of_cover 4 (result m c) (fun t _ => flushed_eq m c t) cover

/-- The kernel's run, read: the output array at the result array of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Attn.Ker

end
-- ==== Proof.RefValue.lean ====
/-
  The reference's result read at an index. Its entry at batch `b`, query row `r`, value column `c` is the sum over the key
  positions `j` of a weight times `v[b, j, c]`; the weight is the shifted exponential of the score `s[b, r, j]` divided by the
  row's sum of them, times the 0/1 value of `u[b, r, j] > τ`, divided by the keep probability; and the score is the
  contraction of `q[b, r, ·]` with `k[b, j, ·]` divided by the square root of 64. That is `outR` over `scoreR`.
-/
import proofs.«431248_j52518860096249_3_alg».proof.Proof.Gen.ReferenceIdeal.Run
import proofs.«431248_j52518860096249_3_alg».proof.Proof.Gen.ReferenceIdeal.Read
import proofs.«431248_j52518860096249_3_alg».proof.Proof.Softmax
import proofs.«431248_j52518860096249_3_alg».proof.Proof.Consts
import Idealize.ShloMosaic.PureOps.Reduce

noncomputable section

open scoped BigOperators
open Idealize.ShloMosaic Idealize.ShloMosaic.ValueIdx

namespace Cert.Attn.Ref

open Cert.ReferenceIdeal Cert.ReferenceIdeal.Gen Cert.ReferenceIdeal.Read

variable (q k v : S16x2048x64.Idx → EReal) (u : S16x2048x2048.Idx → EReal)

/-- The reference's scores for batch `b` and query row `r`, one per key position. -/
abbrev srow (b : Fin 16) (r : Fin 2048) : Fin 2048 → EReal :=
  scoreR (Ideal.ofBits .f32 0x42800000#32) (fun d => q (ix3 b r d)) (fun j d => k (ix3 b j d))

/-- The score stage at `(b, r, j)`. -/
theorem score_apply (b : Fin 16) (r j : Fin 2048) :
    val_main_v3 (F := Ideal) q k (ix3 b r j) = srow q k b r j := by
  have el : ∀ d : Fin 64, lidx_main_v1 (ix3 b r j) d = ix3 b r d := fun d =>
    funext fun a => Fin.ext (by match a with | ⟨0, _⟩ => rfl | ⟨1, _⟩ => rfl | ⟨2, _⟩ => rfl)
  have er : ∀ d : Fin 64, ridx_main_v1 (ix3 b r j) d = ix3 b j d := fun d =>
    funext fun a => Fin.ext (by match a with | ⟨0, _⟩ => rfl | ⟨1, _⟩ => rfl | ⟨2, _⟩ => rfl)
  rw [val_main_v3_apply, val_main_v1_apply, val_main_v2_apply, val_main_v0_apply, val_main_cst_apply]
  simp only [el, er]
  rfl

/-- A key position inserted on the last axis of a `(b, r)` index. -/
theorem lift_eq (h : S16x2048x2048.Reduces [2] S16x2048) (b : Fin 16) (r j : Fin 2048) :
    h.lift (ix2 b r) j = ix3 b r j :=
  funext fun a => Fin.ext (by match a with | ⟨0, _⟩ => rfl | ⟨1, _⟩ => rfl | ⟨2, _⟩ => rfl)

/-- The row-maximum stage at `(b, r)`: the maximum of the row's scores from `-∞` (taking the maximum with `-∞` once
    more changes nothing). -/
theorem max_apply (b : Fin 16) (r : Fin 2048) :
    val_main_v6 (F := Ideal) q k (ix2 b r) = rowMax (srow q k b r) := by
  have h : S16x2048x2048.Reduces [2] S16x2048 := by decide
  have hfun : (val_main_v3 (F := Ideal) q k ∘ h.lift (ix2 b r)) = srow q k b r :=
    funext fun (j : Fin 2048) => by
      show val_main_v3 (F := Ideal) q k (h.lift (ix2 b r) j) = _
      rw [lift_eq h b r j, score_apply]
  rw [val_main_v6_apply, val_main_v5_apply, val_main_cst_1_apply]
  unfold val_main_v4
  rw [Host.reduce_eq_fold_single FloatOps.maximumf _ _ reducesTo_S16x2048x2048_S16x2048_d2 h h_S_, hfun]
  show max (Ideal.ofBits .f32 0xFF800000#32) (Finset.univ.fold max (Ideal.ofBits .f32 0xFF800000#32) (srow q k b r)) = _
  rw [Consts.ofBits_neg_inf]
  exact max_eq_right bot_le

/-- The exponential stage at `(b, r, j)`. -/
theorem exp_apply (b : Fin 16) (r j : Fin 2048) :
    val_main_v10 (F := Ideal) q k (ix3 b r j) = expRow (srow q k b r) j := by
  have e : idx_main_v7 (idx_main_v8 (ix3 b r j)) = ix2 b r :=
    funext fun a => Fin.ext (by match a with | ⟨0, _⟩ => rfl | ⟨1, _⟩ => rfl)
  rw [val_main_v10_apply, val_main_v9_apply, val_main_v8_apply, val_main_v7_apply, e, max_apply, score_apply]
  rfl

/-- The row-sum stage at `(b, r)`. -/
theorem sum_apply (b : Fin 16) (r : Fin 2048) :
    val_main_v11 (F := Ideal) q k (ix2 b r) = rowSum (srow q k b r) := by
  have e : ∀ j : Fin 2048, idx_main_v11 (ix2 b r) j = ix3 b r j := fun j =>
    funext fun a => Fin.ext (by match a with | ⟨0, _⟩ => rfl | ⟨1, _⟩ => rfl | ⟨2, _⟩ => rfl)
  rw [val_main_v11_apply, val_main_cst_2_apply]
  simp only [e, exp_apply]
  show Ideal.ofBits .f32 0x00000000#32 + _ = _
  rw [Ideal.ofBits_zero_f32, zero_add]
  rfl

/-- The weight stage at `(b, r, j)`. -/
theorem weight_apply (b : Fin 16) (r j : Fin 2048) :
    val_main_v20 (F := Ideal) q k u (ix3 b r j)
      = Ideal.div (Ideal.div (expRow (srow q k b r) j) (rowSum (srow q k b r))
          * (((Ideal.cmp .ogt (u (ix3 b r j)) (Ideal.ofBits .f32 0x3DCCCCCD#32)).toNat : ℝ) : EReal))
          (Ideal.ofBits .f32 0x3F666666#32) := by
  have e : idx_main_v12 (idx_main_v13 (ix3 b r j)) = ix2 b r :=
    funext fun a => Fin.ext (by match a with | ⟨0, _⟩ => rfl | ⟨1, _⟩ => rfl)
  rw [val_main_v20_apply, val_main_v18_apply, val_main_v14_apply, val_main_v13_apply, val_main_v12_apply, e, sum_apply,
    exp_apply, val_main_v17_apply, val_main_v16_apply, val_main_v15_apply, val_main_cst_3_apply, val_main_v19_apply,
    val_main_cst_4_apply]
  rfl

/-- THE REFERENCE'S RESULT at `(b, r, c)`. -/
theorem result_apply (b : Fin 16) (r : Fin 2048) (c : Fin 64) :
    val_main_v21 (F := Ideal) q k v u (ix3 b r c)
      = outR (Ideal.ofBits .f32 0x3F666666#32) (Ideal.ofBits .f32 0x3DCCCCCD#32) (srow q k b r)
          (fun j => u (ix3 b r j)) (fun j => v (ix3 b j c)) := by
  have el : ∀ j : Fin 2048, lidx_main_v21 (ix3 b r c) j = ix3 b r j := fun j =>
    funext fun a => Fin.ext (by match a with | ⟨0, _⟩ => rfl | ⟨1, _⟩ => rfl | ⟨2, _⟩ => rfl)
  have er : ∀ j : Fin 2048, ridx_main_v21 (ix3 b r c) j = ix3 b j c := fun j =>
    funext fun a => Fin.ext (by match a with | ⟨0, _⟩ => rfl | ⟨1, _⟩ => rfl | ⟨2, _⟩ => rfl)
  rw [val_main_v21_apply]
  simp only [el, er, weight_apply]
  rfl

end Cert.Attn.Ref

end
-- ==== Proof.Bridge.lean ====
/-
  The two results are one array when the queries and keys are real numbers.

  Entry `(b, r, c)` of the kernel's result is `outK` over `scoreK`, of the reference's `outR` over `scoreR`, of the same rows.
  With real queries and keys both score rows are the real numbers `(∑ q k) / 8` — the kernel's 1/8 scaling inside the
  contraction against the reference's division by `√64 = 8` outside it, which is where finiteness is used — and for a row of
  real scores the two weights agree (Softmax.lean), the kernel's named reciprocal `8388608 / 7549747` being exactly one over
  the reference's keep probability `7549747 / 8388608`.
-/
import proofs.«431248_j52518860096249_3_alg».proof.Proof.RefValue
import proofs.«431248_j52518860096249_3_alg».proof.Proof.KerValue
import proofs.«431248_j52518860096249_3_alg».proof.Proof.Softmax
import proofs.«431248_j52518860096249_3_alg».proof.Proof.Consts
import Idealize.ShloMosaic.PureOps.IdealRules

noncomputable section

open scoped BigOperators
open Idealize.ShloMosaic Idealize.ShloMosaic.ValueIdx

namespace Cert.Attn

/-- The kernel's named constant denotes the reciprocal of the reference's keep probability, by the certificate's table. -/
theorem inv_keep :
    Named.named (F := Ideal) Cert.KernelIdeal.κ "inv_keep_prob" (φ := .f32) 0x3F8E38E4#32 = ((8388608 / 7549747 : ℝ) : EReal) :=
  IdealRules.named_const.ideal_named_scalar _ _ _ _ rfl

/-- An extended real that is neither infinity is the coercion of its real part. -/
theorem coe_toReal_of_real {x : EReal} (h : x ≠ ⊥ ∧ x ≠ ⊤) : x = ((x.toReal : ℝ) : EReal) :=
  (EReal.coe_toReal h.2 h.1).symm

/-- THE BRIDGE: for real queries and keys the reference's result is the kernel's result array. -/
theorem ref_eq_GK (q k v : Cert.ReferenceIdeal.S16x2048x64.Idx → EReal) (u : Cert.ReferenceIdeal.S16x2048x2048.Idx → EReal)
    (hq : ∀ i, q i ≠ ⊥ ∧ q i ≠ ⊤) (hk : ∀ i, k i ≠ ⊥ ∧ k i ≠ ⊤) :
    Cert.ReferenceIdeal.Read.val_main_v21 (F := Ideal) q k v u = Ker.GK q k v u := by
  funext i
  obtain ⟨b, r, c, rfl⟩ : ∃ (b : Fin 16) (r : Fin 2048) (c : Fin 64), i = ix3 b r c := ⟨i 0, i 1, i 2, eq_ix3 i⟩
  rw [Ref.result_apply]
  show _ = Ker.gk q k v u b r c
  unfold Ker.gk Ref.srow
  have eq : (fun d : Fin 64 => q (ix3 b r d)) = fun d : Fin 64 => (((q (ix3 b r d)).toReal : ℝ) : EReal) :=
    funext fun d => coe_toReal_of_real (hq _)
  have ek : (fun (j : Fin 2048) (d : Fin 64) => k (ix3 b j d))
      = fun (j : Fin 2048) (d : Fin 64) => (((k (ix3 b j d)).toReal : ℝ) : EReal) :=
    funext fun j => funext fun d => coe_toReal_of_real (hk _)
  have eR : scoreR (Ideal.ofBits .f32 0x42800000#32) (fun d : Fin 64 => q (ix3 b r d)) (fun (j : Fin 2048) (d : Fin 64) => k (ix3 b j d))
      = fun j : Fin 2048 => (((∑ d : Fin 64, (q (ix3 b r d)).toReal * (k (ix3 b j d)).toReal) / 8 : ℝ) : EReal) := by
    rw [eq, ek, Consts.ofBits_64]
    exact funext fun j => scoreR_coe _ _ j
  have eK : scoreK (Ideal.ofBits .f32 0x3E000000#32) (fun d : Fin 64 => q (ix3 b r d)) (fun (j : Fin 2048) (d : Fin 64) => k (ix3 b j d))
      = fun j : Fin 2048 => (((∑ d : Fin 64, (q (ix3 b r d)).toReal * (k (ix3 b j d)).toReal) / 8 : ℝ) : EReal) := by
    rw [eq, ek, Consts.ofBits_eighth]
    exact funext fun j => scoreK_coe _ _ j
  rw [eR, eK, inv_keep, Consts.ofBits_keep]
  exact (outK_eq_outR (by norm_num) _ _ _ _ (fun j => EReal.coe_ne_bot _) (fun j => EReal.coe_ne_top _)
    (by norm_num) (by norm_num)).symm

end Cert.Attn

end
-- ==== Proof.lean ====
/-
  Scaled dot-product attention with an explicit dropout mask, batch 16, 2048 queries and keys, 64 features: a Pallas kernel
  over a 16 × 4 grid (one batch, 512 query rows a point) against the jnp reference, equal over the extended reals.

  Both compute, for batch `b`, query row `r` and value column `c`, the sum over key positions `j` of a weight times `v[b, j, c]`.
  The weight is the softmax of the scores `q[b, r, ·] · k[b, j, ·] / 8` along `j`, kept where `mask[b, r, j] > 0.1` and zeroed
  elsewhere, divided by the keep probability. The kernel scales the query by 1/8 before the contraction where the reference
  divides by `√64` after it (equal for real queries and keys: this is where the precondition is used); it selects the kept
  exponentials and multiplies by `(1 / l) · C` where the reference divides by the row sum `l`, multiplies by the 0/1 mask and
  divides by the keep probability `D` (equal by associativity once `l ≠ 0`, which real scores give, and `C = 1 / D`); its
  changes of float format are the identity here. `C` is the kernel's folded `1 / (1 - p)`, named by the statement as the exact
  reciprocal `8388608 / 7549747` of the reference's `D = 7549747 / 2²³`, the float nearest 0.9: the one entry of `preserves`.

  The frames of the two kernel programs and the kernel's value leg block by block are generated; so are the reference's run
  and its stages read at an index. Written by hand: the arithmetic on the extended reals (Proof/Softmax.lean), the kernel
  body at an index (Proof/KerPayload.lean), the blocks assembled into the result array (Proof/KerValue.lean), the reference
  at an index (Proof/RefValue.lean), the precondition read back (Proof/Finite.lean), and the bridge (Proof/Bridge.lean).
-/
import proofs.«431248_j52518860096249_3_alg».proof.Defs
import proofs.«431248_j52518860096249_3_alg».proof.Proof.Gen.Kernel
import proofs.«431248_j52518860096249_3_alg».proof.Proof.Gen.Kernel.Skeleton
import proofs.«431248_j52518860096249_3_alg».proof.Proof.Gen.Kernel.Launch
import proofs.«431248_j52518860096249_3_alg».proof.Proof.Gen.Kernel.Points
import proofs.«431248_j52518860096249_3_alg».proof.Proof.Gen.Kernel.Frame
import proofs.«431248_j52518860096249_3_alg».proof.Proof.Gen.KernelIdeal
import proofs.«431248_j52518860096249_3_alg».proof.Proof.Gen.KernelIdeal.Skeleton
import proofs.«431248_j52518860096249_3_alg».proof.Proof.Gen.KernelIdeal.Launch
import proofs.«431248_j52518860096249_3_alg».proof.Proof.Gen.KernelIdeal.Points
import proofs.«431248_j52518860096249_3_alg».proof.Proof.Gen.KernelIdeal.Frame
import proofs.«431248_j52518860096249_3_alg».proof.Proof.Gen.KernelIdeal.Value
import proofs.«431248_j52518860096249_3_alg».proof.Proof.Gen.ReferenceIdeal
import proofs.«431248_j52518860096249_3_alg».proof.Proof.Gen.ReferenceIdeal.Run
import proofs.«431248_j52518860096249_3_alg».proof.Proof.Gen.ReferenceIdeal.Read
import proofs.«431248_j52518860096249_3_alg».proof.Proof.Gen.Pre_finite_inputs
import proofs.«431248_j52518860096249_3_alg».proof.Proof.Finite
import proofs.«431248_j52518860096249_3_alg».proof.Proof.KerValue
import proofs.«431248_j52518860096249_3_alg».proof.Proof.Bridge
import Idealize.ShloMosaic.Adequacy
import Idealize.ShloMosaic.Init

noncomputable section

namespace Cert.Proof

open Idealize.ShloMosaic Idealize.SL.Sem

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one named constant: the table gives `"inv_keep_prob"` the value `8388608 / 7549747`, and the printed constant is that
    value at the ideal instance. -/
theorem preserves : Cert.preserves_Kernel_KernelIdeal :=
  IdealRules.named_const.statement Cert.KernelIdeal.κ "inv_keep_prob" .f32 0x3F8E38E4#32 ((8388608 / 7549747 : ℝ) : EReal) rfl

/-- Both programs end with the result array of Proof/KerValue.lean: the kernel by its blocks, the reference because under
    the precondition its queries and keys are real and the bridge applies. -/
theorem algebraic : Cert.algebraic_KernelIdeal_ReferenceIdeal := by
  intro m ρ m' ρ' hpre hagree
  refine ⟨fun c => Cert.Attn.Ker.result m c, Cert.Attn.Ker.run m ρ, ?_⟩
  refine (θ_run Cert.ReferenceIdeal.defs _ _).mono (fun _ h c => ⟨(h c).1.trans ?_, (h c).2⟩)
    (Cert.ReferenceIdeal.Value.run (F := Ideal) m' ρ')
  obtain ⟨hq, hk⟩ := Cert.Attn.real_of_pre _ _ _ _ (hpre c)
  rw [Cert.ReferenceIdeal.Read.val_main_v21_eq, (hagree c).1, (hagree c).2.1, (hagree c).2.2.1, (hagree c).2.2.2]
  exact Cert.Attn.ref_eq_GK _ _ _ _ hq hk

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  preserves,
  algebraic⟩

end Cert.Proof

end
